-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S4x4096x2048 .f32) (main_arg1 : FVec F S64x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S4x4096x2048 : Shape := ⟨3, ![4, 4096, 2048]⟩
abbrev S64x2048 : Shape := ⟨2, ![64, 2048]⟩
abbrev S4x64x4096 : Shape := ⟨3, ![4, 64, 4096]⟩
abbrev S1x1024x2048 : Shape := ⟨3, ![1, 1024, 2048]⟩
abbrev S1x64x1024 : Shape := ⟨3, ![1, 64, 1024]⟩
abbrev S1024x2048 : Shape := ⟨2, ![1024, 2048]⟩
abbrev S64x1024 : Shape := ⟨2, ![64, 1024]⟩
abbrev S1024 : Shape := ⟨1, ![1024]⟩
abbrev S1x1024 : Shape := ⟨2, ![1, 1024]⟩
abbrev S4x4096x64 : Shape := ⟨3, ![4, 4096, 64]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4x64x4096, .f32⟩
  | .hbm, ⟨3, _⟩ => ⟨S4x64x4096, .f32⟩
  | .hbm, ⟨4, _⟩ => ⟨S4x4096x64, .f32⟩
  | .hbm, ⟨5, _⟩ => ⟨S4x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S64x2048, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S64x2048_S64x2048_0_0 : ∀ a, (![0, 0] : Fin 2 → Nat) a + S64x2048.size a ≤ S64x2048.size a
  h_S64x2048 : 0 < S64x2048.numel
  reduces_S64x1024_S1024 : S64x1024.Reduces [0] S1024
  shapeCasts_S1024_S1x1024 : S1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  transposes_S4x64x4096_S4x4096x64_0_2_1 : S4x64x4096.Transposes [0, 2, 1] S4x4096x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x4096x2048.size a
  hwx0_0 : ∀ i : grid0.Coords, EltTy.bits .f32 = 32 ∨ (Rect.block (s := S4x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S4x64x4096.size a
  hwx0_2 : ∀ i : grid0.Coords, EltTy.bits .f32 = 32 ∨ (Rect.block (s := S4x64x4096) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S4x64x4096.size a
  hwx0_3 : ∀ i : grid0.Coords, EltTy.bits .f32 = 32 ∨ (Rect.block (s := S4x64x4096) S1x64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x64, .f32⟩
  | .hbm, ⟨16, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  dot_S4x4096x2048_S64x2048_S4x4096x64_2_1_01_0_n_n_wf : DotDims.WF S4x4096x2048 S64x2048 S4x4096x64 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf

class Facts : Prop extends Facts₀ where

variable [Facts]
-- ==== Proof.KernelBlock.lean ====
/-
  What the kernel body computes from one block of tokens and the expert table, entry by entry, on the extended reals.

  The body holds a block x of 1024 tokens (rows) of 2048 features and the table W of 64 experts (rows) of 2048
  features. Its matrix product contracts the feature axis of both, so the logits come out transposed:
      L (e, s) = Σ_d W (e, d) · x (s, d)          (expert e, token s).
  The second stored value exponentiates every logit and divides by the sum of the exponentials over the experts of the
  same token:
      P (e, s) = exp (L (e, s)) / Σ_k exp (L (k, s)).
  Both are stored with a leading axis of extent one put in front, which changes no entry.
-/
import proofs.«162984_g2018634629600_cont_8to1_1040_18_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-! ## The matrix product's operand indices: W is read at (expert, feature), the token block at (token, feature) -/

theorem lhs_axis0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_axis1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_axis0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_axis1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The product of the table with the token block, into zero, at (expert e, token s): the sum over the features of
    the table's entry times the block's. -/
theorem matmul_at (w : FVec Ideal S64x2048 .f32) (x : FVec Ideal S1024x2048 .f32) (e : Fin 64) (s : Fin 1024) :
    matmul dot_S64x2048_S1024x2048_S64x1024_1_1_0_0_n_n none w x (constant S64x1024 .f32 0x00000000#32) (ix2 e s)
      = ∑ d : Fin 2048, w (ix2 e d) * x (ix2 s d) := by
  simp only [matmul]
  rw [Ideal.matmul_constant_zero_apply, ← Equiv.sum_comp (contrEquiv1 dot_S64x2048_S1024x2048_S64x1024_1_1_0_0_n_n 2048 rfl rfl).symm]
  refine Finset.sum_congr rfl fun d _ => ?_
  have hd := contrEquiv1_symm_val dot_S64x2048_S1024x2048_S64x1024_1_1_0_0_n_n 2048 rfl rfl d
  have el : dot_S64x2048_S1024x2048_S64x1024_1_1_0_0_n_n.lhsIdx (ix2 e s) ((contrEquiv1 dot_S64x2048_S1024x2048_S64x1024_1_1_0_0_n_n 2048 rfl rfl).symm d) = ix2 e d := funext fun a => Fin.ext (by
    match a with
    | ⟨0, _⟩ => exact lhs_axis0 _ _
    | ⟨1, _⟩ => exact (lhs_axis1 _ _).trans hd)
  have er : dot_S64x2048_S1024x2048_S64x1024_1_1_0_0_n_n.rhsIdx (ix2 e s) ((contrEquiv1 dot_S64x2048_S1024x2048_S64x1024_1_1_0_0_n_n 2048 rfl rfl).symm d) = ix2 s d := funext fun a => Fin.ext (by
    match a with
    | ⟨0, _⟩ => exact rhs_axis0 _ _
    | ⟨1, _⟩ => exact (rhs_axis1 _ _).trans hd)
  rw [el, er]

/-! ## The logits of a block -/

/-- Expert e's logit for token s of the block: Σ_d W (e, d) · x (0, s, d). -/
def logit (x : Vec Ideal S1x1024x2048 .f32) (w : Vec Ideal S64x2048 .f32) (e : Fin 64) (s : Fin 1024) : EReal :=
  ∑ d : Fin 2048, w (ix2 e d) * x (ix3 (0 : Fin 1) s d)

/-- The product payload is the logit, entry by entry. -/
theorem pay1_at (x : Vec Ideal S1x1024x2048 .f32) (w : Vec Ideal S64x2048 .f32) (e : Fin 64) (s : Fin 1024) :
    k0_pay1 (F := Ideal) x w (ix2 e s) = logit x w e s := by
  unfold k0_pay1 logit
  refine (matmul_at w _ e s).trans ?_
  refine Finset.sum_congr rfl fun d _ => ?_
  exact congrArg (w (ix2 e d) * ·) (shapeCast_1ab_ab_apply x shapeCasts_S1x1024x2048_S1024x2048 s d)

/-- The first stored value: the logits under a leading unit axis. -/
theorem pay2_at (x : Vec Ideal S1x1024x2048 .f32) (w : Vec Ideal S64x2048 .f32) (u : Fin 1) (e : Fin 64) (s : Fin 1024) :
    k0_pay2 (F := Ideal) x w (ix3 u e s) = logit x w e s := by
  unfold k0_pay2
  exact (shapeCast_ab_1ab_apply (k0_pay1 (F := Ideal) x w) shapeCasts_S64x1024_S1x64x1024 u e s).trans (pay1_at x w e s)

/-- The sum over the experts (axis 0) of a [64, 1024] table, at token s. -/
theorem sum_experts_at (v : FVec Ideal S64x1024 .f32) (hacc : (0x00000000#32 : BitVec 32) = 0x00000000#32) (s : Fin 1024) :
    multiReduction .add [0] S1024 v 0x00000000#32 reduces_S64x1024_S1024 (.inl rfl) hacc (ix1 s)
      = ∑ k : Fin 64, v (ix2 k s) := by
  refine (Ideal.multiReduction_add_single v 0x00000000#32 reduces_S64x1024_S1024 (.inl rfl) hacc (ix1 s)).trans ?_
  refine Finset.sum_congr rfl fun k _ => ?_
  exact congrArg v (funext fun a => Fin.ext (by match a with | ⟨0, _⟩ => rfl | ⟨1, _⟩ => rfl))

/-- The second stored value: each logit's exponential over the sum of the exponentials of its token's logits. -/
theorem pay3_at (x : Vec Ideal S1x1024x2048 .f32) (w : Vec Ideal S64x2048 .f32) (u : Fin 1) (e : Fin 64) (s : Fin 1024) :
    k0_pay3 (F := Ideal) x w (ix3 u e s)
      = Ideal.div (Ideal.exp (logit x w e s)) (∑ k : Fin 64, Ideal.exp (logit x w k s)) := by
  unfold k0_pay3
  refine (shapeCast_ab_1ab_apply _ shapeCasts_S64x1024_S1x64x1024 u e s).trans ?_
  refine (divf_apply _ _ (ix2 e s)).trans ?_
  have hnum : exp (k0_pay1 (F := Ideal) x w) (ix2 e s) = Ideal.exp (logit x w e s) :=
    congrArg Ideal.exp (pay1_at x w e s)
  have hden : broadcastTo S64x1024 (shapeCast S1x1024 (multiReduction .add [0] S1024 (exp (k0_pay1 (F := Ideal) x w)) 0x00000000#32 reduces_S64x1024_S1024 (.inl rfl) rfl) shapeCasts_S1024_S1x1024) broadcasts_S1x1024_S64x1024 (ix2 e s)
      = ∑ k : Fin 64, Ideal.exp (logit x w k s) := by
    refine (broadcastTo_1b_ab_apply _ broadcasts_S1x1024_S64x1024 e s).trans ?_
    refine (shapeCast_a_1a_apply _ shapeCasts_S1024_S1x1024 (0 : Fin 1) s).trans ?_
    refine (sum_experts_at _ rfl s).trans ?_
    exact Finset.sum_congr rfl fun k _ => congrArg Ideal.exp (pay1_at x w k s)
  rw [hnum, hden]

end Cert.KernelIdeal.Block

end
-- ==== Proof.KernelArray.lean ====
/-
  The two arrays the kernel region leaves, as functions of the whole argument arrays.

  The grid has 4 × 4 points: point (b, q) takes batch b's tokens q·1024 … q·1024 + 1023 (all 2048 features) and the whole
  expert table, and writes back, for both outputs, the block [b, all 64 experts, tokens q·1024 … q·1024 + 1023] of an
  array laid out [batch, expert, token]. A token's logits and its softmax involve only that token's features and the
  table, so each written block is the restriction of ONE function of the whole arrays:
      logits  [b, e, s] = Σ_d W (e, d) · X (b, s, d)
      softmax [b, e, s] = exp (logits [b, e, s]) / Σ_k exp (logits [b, k, s]).
  The 16 blocks tile the output arrays, so after the region the arrays ARE these functions.
-/
import proofs.«162984_g2018634629600_cont_8to1_1040_18_alg».proof.Proof.Gen.KernelIdeal.Frame
import proofs.«162984_g2018634629600_cont_8to1_1040_18_alg».proof.Proof.KernelBlock
import Idealize.ShloMosaic.Lib.Pipeline.Value

set_option maxRecDepth 16384

noncomputable section

namespace Cert.KernelIdeal.Arrays

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The functions -/

/-- Expert e's logit for token s of batch b. -/
def logitA (X : S4x4096x2048.Idx → Elt Ideal .f32) (W : S64x2048.Idx → Elt Ideal .f32) (b : Fin 4) (e : Fin 64) (s : Fin 4096) : Elt Ideal .f32 :=
  ∑ d : Fin 2048, W (ix2 e d) * X (ix3 b s d)

/-- The softmax over the experts of token s of batch b, at expert e. -/
def softA (X : S4x4096x2048.Idx → Elt Ideal .f32) (W : S64x2048.Idx → Elt Ideal .f32) (b : Fin 4) (e : Fin 64) (s : Fin 4096) : Elt Ideal .f32 :=
  Ideal.div (Ideal.exp (logitA X W b e s)) (∑ k : Fin 64, Ideal.exp (logitA X W b k s))

/-- The logits laid out [batch, expert, token]. -/
def logitsT (X : S4x4096x2048.Idx → Elt Ideal .f32) (W : S64x2048.Idx → Elt Ideal .f32) : S4x64x4096.Idx → Elt Ideal .f32 :=
  fun i => logitA X W ⟨(i 0).val, (i 0).isLt⟩ ⟨(i 1).val, (i 1).isLt⟩ ⟨(i 2).val, (i 2).isLt⟩

/-- The softmax laid out [batch, expert, token]. -/
def softT (X : S4x4096x2048.Idx → Elt Ideal .f32) (W : S64x2048.Idx → Elt Ideal .f32) : S4x64x4096.Idx → Elt Ideal .f32 :=
  fun i => softA X W ⟨(i 0).val, (i 0).isLt⟩ ⟨(i 1).val, (i 1).isLt⟩ ⟨(i 2).val, (i 2).isLt⟩

/-! ## A block's logits are the arrays' logits -/

/-- If a token block x holds batch b's tokens from s' - s on and w is the table, the block's logit for (e, s) is the arrays'
    for (b, e, s'). -/
theorem logit_of_blocks (X : S4x4096x2048.Idx → Elt Ideal .f32) (W : S64x2048.Idx → Elt Ideal .f32)
    (x : Vec Ideal S1x1024x2048 .f32) (w : Vec Ideal S64x2048 .f32) (b : Fin 4) (s : Fin 1024) (s' : Fin 4096)
    (hx : ∀ d : Fin 2048, x (ix3 (0 : Fin 1) s d) = X (ix3 b s' d)) (hw : ∀ (k : Fin 64) (d : Fin 2048), w (ix2 k d) = W (ix2 k d))
    (e : Fin 64) : logit x w e s = logitA X W b e s' := by
  unfold logit logitA
  exact Finset.sum_congr rfl fun d _ => by rw [hx d, hw e d]

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The token window moves with the output windows (batch with batch, token block with token block), the table's window
    stays at the origin, the outputs take all experts, and both outputs move together. -/
theorem idx_facts : ∀ t : Fin cfg0.N,
    win0_0.index t (0 : Fin 3) = win0_3.index t (0 : Fin 3)
    ∧ win0_0.index t (1 : Fin 3) = win0_3.index t (2 : Fin 3)
    ∧ win0_0.index t (2 : Fin 3) = 0
    ∧ win0_1.index t (0 : Fin 2) = 0
    ∧ win0_1.index t (1 : Fin 2) = 0
    ∧ win0_3.index t (1 : Fin 3) = 0
    ∧ win0_3.index t (0 : Fin 3) ≤ 3
    ∧ win0_3.index t (2 : Fin 3) ≤ 3
    ∧ win0_2.index t (0 : Fin 3) = win0_3.index t (0 : Fin 3)
    ∧ win0_2.index t (1 : Fin 3) = win0_3.index t (1 : Fin 3)
    ∧ win0_2.index t (2 : Fin 3) = win0_3.index t (2 : Fin 3) :=
  (by decide +kernel : ∀ t : Fin grid0.N, _)

/-- Every (batch, token block) is some point's. -/
theorem idx_onto : ∀ (q0 : Fin 4) (q2 : Fin 4), ∃ t : Fin cfg0.N, win0_3.index t (0 : Fin 3) = q0.val ∧ win0_3.index t (2 : Fin 3) = q2.val :=
  (by decide +kernel : ∀ (q0 : Fin 4) (q2 : Fin 4), ∃ t : Fin grid0.N, win0_3.index t (0 : Fin 3) = q0.val ∧ win0_3.index t (2 : Fin 3) = q2.val)

/-! ## The input blocks, read where the output block says -/

/-- Point t's token block and table block, at their literal types. -/
abbrev xblk (c : Dev nD) (t : Fin cfg0.N) : Vec Ideal S1x1024x2048 .f32 := iblk m c 0 t
abbrev wblk (c : Dev nD) (t : Fin cfg0.N) : Vec Ideal S64x2048 .f32 := iblk m c 1 t

/-- The token block's entry (0, s, d) is the token array's at (batch of the point, its token block's start + s, d). -/
theorem xblk_at (c : Dev nD) (t : Fin cfg0.N) (s : Fin 1024) (d : Fin 2048) (b : Fin 4) (s' : Fin 4096)
    (hb : b.val = win0_3.index t (0 : Fin 3)) (hs : s'.val = win0_3.index t (2 : Fin 3) * 1024 + s.val) :
    xblk m c t (ix3 (0 : Fin 1) s d) = V m c main_arg0 (ix3 b s' d) := by
  obtain ⟨e00, e01, e02, -⟩ := idx_facts t
  show V m c main_arg0 (((cfg0.win 0).blk t).view.emb (ix3 (0 : Fin 1) s d)) = V m c main_arg0 (ix3 b s' d)
  refine congrArg _ (funext fun a => Fin.ext ?_)
  match a with
  | ⟨0, _⟩ => show win0_0.index t (0 : Fin 3) * 1 + 1 * (0 : Nat) = b.val; omega
  | ⟨1, _⟩ => show win0_0.index t (1 : Fin 3) * 1024 + 1 * s.val = s'.val; omega
  | ⟨2, _⟩ => show win0_0.index t (2 : Fin 3) * 2048 + 1 * d.val = d.val; omega

/-- The table block is the table. -/
theorem wblk_at (c : Dev nD) (t : Fin cfg0.N) (k : Fin 64) (d : Fin 2048) :
    wblk m c t (ix2 k d) = V m c main_arg1 (ix2 k d) := by
  obtain ⟨-, -, -, e10, e11, -⟩ := idx_facts t
  show V m c main_arg1 (((cfg0.win 1).blk t).view.emb (ix2 k d)) = V m c main_arg1 (ix2 k d)
  refine congrArg _ (funext fun a => Fin.ext ?_)
  match a with
  | ⟨0, _⟩ => show win0_1.index t (0 : Fin 2) * 64 + 1 * k.val = k.val; omega
  | ⟨1, _⟩ => show win0_1.index t (1 : Fin 2) * 2048 + 1 * d.val = d.val; omega

/-! ## What a point writes back -/

/-- Point t writes back, in the logits window, its block of the logits array. -/
theorem flushed3_eq (c : Dev nD) (t : Fin cfg0.N) :
    (dats m 0 c).flushed 3 t = ((cfg0.win 3).blk t).view.read (Elt Ideal) (logitsT (V m c main_arg0) (V m c main_arg1)) := by
  show (cfg0.win 3).cut (grid0.coords t) ((dats m 0 c).after 3 t) = _
  rw [after0_3]
  unfold out0_3
  rw [View.canon_unit_zero hz3]
  simp only [View.ld_unit_zero (S := S1x1024x2048) hz3, View.ld_unit_zero (S := S64x2048) hz2]
  obtain ⟨-, -, -, -, -, e31, b30, b32, -⟩ := idx_facts t
  refine funext fun (j : S1x64x1024.Idx) => ?_
  obtain ⟨u, e, s, rfl⟩ : ∃ (u : Fin 1) (e : Fin 64) (s : Fin 1024), j = ix3 u e s := ⟨j 0, j 1, j 2, eq_ix3 j⟩
  have hu : u.val = 0 := by omega
  have he := e.isLt
  have hs := s.isLt
  show k0_pay2 (F := Ideal) (xblk m c t) (wblk m c t) (ix3 u e s)
    = logitA (V m c main_arg0) (V m c main_arg1)
        ⟨win0_3.index t (0 : Fin 3) * 1 + 1 * u.val, by omega⟩ ⟨win0_3.index t (1 : Fin 3) * 64 + 1 * e.val, by omega⟩
        ⟨win0_3.index t (2 : Fin 3) * 1024 + 1 * s.val, by omega⟩
  refine (pay2_at (xblk m c t) (wblk m c t) u e s).trans ?_
  have hee : (⟨win0_3.index t (1 : Fin 3) * 64 + 1 * e.val, by omega⟩ : Fin 64) = e := Fin.ext (by show win0_3.index t (1 : Fin 3) * 64 + 1 * e.val = e.val; omega)
  rw [hee]
  exact logit_of_blocks _ _ (xblk m c t) (wblk m c t) _ s _
    (fun d => xblk_at m c t s d _ _ (by show win0_3.index t (0 : Fin 3) * 1 + 1 * u.val = win0_3.index t (0 : Fin 3); omega)
      (by show win0_3.index t (2 : Fin 3) * 1024 + 1 * s.val = win0_3.index t (2 : Fin 3) * 1024 + s.val; omega)) (fun k d => wblk_at m c t k d) e

/-- Point t writes back, in the softmax window, its block of the softmax array: every expert's logit of a token is read
    from the same token block, so the sum over the experts is the arrays' sum too. -/
theorem flushed2_eq (c : Dev nD) (t : Fin cfg0.N) :
    (dats m 0 c).flushed 2 t = ((cfg0.win 2).blk t).view.read (Elt Ideal) (softT (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x1024x2048) hz3, View.ld_unit_zero (S := S64x2048) hz2]
  obtain ⟨-, -, -, -, -, e31, b30, b32, e20, e21, e22⟩ := idx_facts t
  refine funext fun (j : S1x64x1024.Idx) => ?_
  obtain ⟨u, e, s, rfl⟩ : ∃ (u : Fin 1) (e : Fin 64) (s : Fin 1024), j = ix3 u e s := ⟨j 0, j 1, j 2, eq_ix3 j⟩
  have hu : u.val = 0 := by omega
  have he := e.isLt
  have hs := s.isLt
  show k0_pay3 (F := Ideal) (xblk m c t) (wblk m c t) (ix3 u e s)
    = softA (V m c main_arg0) (V m c main_arg1)
        ⟨win0_2.index t (0 : Fin 3) * 1 + 1 * u.val, by omega⟩ ⟨win0_2.index t (1 : Fin 3) * 64 + 1 * e.val, by omega⟩
        ⟨win0_2.index t (2 : Fin 3) * 1024 + 1 * s.val, by omega⟩
  refine (pay3_at (xblk m c t) (wblk m c t) u e s).trans ?_
  have hee : (⟨win0_2.index t (1 : Fin 3) * 64 + 1 * e.val, by omega⟩ : Fin 64) = e :=
    Fin.ext (by show win0_2.index t (1 : Fin 3) * 64 + 1 * e.val = e.val; omega)
  rw [hee]
  unfold softA
  have hl : ∀ k : Fin 64, logit (xblk m c t) (wblk m c t) k s
      = logitA (V m c main_arg0) (V m c main_arg1) ⟨win0_2.index t (0 : Fin 3) * 1 + 1 * u.val, by omega⟩ k
          ⟨win0_2.index t (2 : Fin 3) * 1024 + 1 * s.val, by omega⟩ := fun k =>
    logit_of_blocks _ _ (xblk m c t) (wblk m c t) _ s _
      (fun d => xblk_at m c t s d _ _ (by show win0_2.index t (0 : Fin 3) * 1 + 1 * u.val = win0_3.index t (0 : Fin 3); omega)
        (by show win0_2.index t (2 : Fin 3) * 1024 + 1 * s.val = win0_3.index t (2 : Fin 3) * 1024 + s.val; omega))
      (fun k d => wblk_at m c t k d) k
  rw [hl e, Finset.sum_congr rfl (fun k _ => congrArg Ideal.exp (hl k))]

/-! ## The blocks tile the arrays -/

/-- An index is in point t's logits block iff each coordinate is in the block's range on its axis. -/
theorem mem_blk3 (t : Fin cfg0.N) (i : S4x64x4096.Idx) :
    i ∈ ((cfg0.win 3).blk t).view.set ↔ ∀ a : Fin 3, win0_3.index t a * S1x64x1024.size a ≤ (i a).val ∧ (i a).val < win0_3.index t a * S1x64x1024.size a + S1x64x1024.size a := by
  show i ∈ ((View.whole main_v0_1).slice (win0_3.rect t)).set ↔ _
  rw [View.set_slice_whole, Rect.mem_set_unit]
  exact Iff.rfl

/-- The same for the softmax block. -/
theorem mem_blk2 (t : Fin cfg0.N) (i : S4x64x4096.Idx) :
    i ∈ ((cfg0.win 2).blk t).view.set ↔ ∀ a : Fin 3, win0_2.index t a * S1x64x1024.size a ≤ (i a).val ∧ (i a).val < win0_2.index t a * S1x64x1024.size a + S1x64x1024.size a := by
  show i ∈ ((View.whole main_v0_0).slice (win0_2.rect t)).set ↔ _
  rw [View.set_slice_whole, Rect.mem_set_unit]
  exact Iff.rfl

/-- Entry (b, e, s) is in the block of the point with batch b and token block s / 1024. -/
theorem cover3 (i : S4x64x4096.Idx) : ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 4096 := (i 2).isLt
  obtain ⟨t, q0, q2⟩ := idx_onto ⟨(i 0).val, hi0⟩ ⟨(i 2).val / 1024, by omega⟩
  have q0' : win0_3.index t (0 : Fin 3) = (i 0).val := q0
  have q2' : win0_3.index t (2 : Fin 3) = (i 2).val / 1024 := q2
  obtain ⟨-, -, -, -, -, e31, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 1024 ≤ (i 2).val ∧ (i 2).val < win0_3.index t (2 : Fin 3) * 1024 + 1024; omega

theorem cover2 (i : S4x64x4096.Idx) : ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 4096 := (i 2).isLt
  obtain ⟨t, q0, q2⟩ := idx_onto ⟨(i 0).val, hi0⟩ ⟨(i 2).val / 1024, by omega⟩
  have q0' : win0_3.index t (0 : Fin 3) = (i 0).val := q0
  have q2' : win0_3.index t (2 : Fin 3) = (i 2).val / 1024 := q2
  obtain ⟨-, -, -, -, -, e31, -, -, e20, e21, e22⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 1024 ≤ (i 2).val ∧ (i 2).val < win0_2.index t (2 : Fin 3) * 1024 + 1024; omega

/-! ## The arrays after the region -/

/-- The logits array after the region is the logits of the argument arrays, laid out [batch, expert, token]. -/
theorem final3 (c : Dev nD) : (dats m 0 c).arrAt 3 cfg0.N = logitsT (V m c main_arg0) (V m c main_arg1) :=
  (dats m 0 c).arrAt_eq_of_cover 3 _ (fun t _ => flushed3_eq m c t) cover3

/-- The softmax array after the region is the softmax of the argument arrays' logits, in the same layout. -/
theorem final2 (c : Dev nD) : (dats m 0 c).arrAt 2 cfg0.N = softT (V m c main_arg0) (V m c main_arg1) :=
  (dats m 0 c).arrAt_eq_of_cover 2 _ (fun t _ => flushed2_eq m c t) cover2

end Cert.KernelIdeal.Arrays

end
-- ==== Proof.KernelRun.lean ====
/-
  The kernel program's run, with its two results named.

  After the region the program transposes each of the two [batch, expert, token] arrays to [batch, token, expert]: entry
  (b, s, e) of a result is entry (b, e, s) of the array the region left. So the results are the softmax and the logits
  of the argument arrays in the layout [batch, token, expert], and the argument arrays are unchanged.
-/
import proofs.«162984_g2018634629600_cont_8to1_1040_18_alg».proof.Proof.KernelArray
import Idealize.ShloMosaic.Lib.StableHlo.Run

set_option maxRecDepth 16384

noncomputable section

namespace Cert.KernelIdeal.RunValue

open Cert.KernelIdeal Cert.KernelIdeal.Gen Cert.KernelIdeal.Arrays
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The softmax result: the [batch, expert, token] softmax with its last two axes exchanged. -/
def softOut (X : S4x4096x2048.Idx → Elt Ideal .f32) (W : S64x2048.Idx → Elt Ideal .f32) : S4x4096x64.Idx → Elt Ideal .f32 :=
  transpose S4x4096x64 [0, 2, 1] (softT X W) transposes_S4x64x4096_S4x4096x64_0_2_1

/-- The logits result: the [batch, expert, token] logits with their last two axes exchanged. -/
def logitsOut (X : S4x4096x2048.Idx → Elt Ideal .f32) (W : S64x2048.Idx → Elt Ideal .f32) : S4x4096x64.Idx → Elt Ideal .f32 :=
  transpose S4x4096x64 [0, 2, 1] (logitsT X W) transposes_S4x64x4096_S4x4096x64_0_2_1

/-- The first result after the host lines that follow the region. -/
theorem tail_v1 (c : Dev nD) :
    Pipeline.afterTail₀ cfgs (dats m) 0 (V0 m) [hostOps1] c main_v1 = softOut (V m c main_arg0) (V m c main_arg1) := by
  unfold Pipeline.afterTail₀
  show StableHlo.after hostOps1 _ (Proc.devRef .tc main_v1) = _
  after_results
  rw [(Pipeline.withArrays_arr spec0 launch0.win.arr_inj c _ _ 2).trans (final2 m c)]
  rfl

/-- The second. -/
theorem tail_v2 (c : Dev nD) :
    Pipeline.afterTail₀ cfgs (dats m) 0 (V0 m) [hostOps1] c main_v2 = logitsOut (V m c main_arg0) (V m c main_arg1) := by
  unfold Pipeline.afterTail₀
  show StableHlo.after hostOps1 _ (Proc.devRef .tc main_v2) = _
  after_results
  rw [(Pipeline.withArrays_arr spec0 launch0.win.arr_inj c _ _ 3).trans (final3 m c)]
  rfl

/-- Every weakly fair execution of the kernel program terminates with the results at the softmax and the logits of the
    argument arrays, and the argument arrays as they were. -/
theorem run : θ_run defs (onTc (τ := τ) (main (F := Ideal))) ⟨m, fun _ => 0, ρ⟩ (fun r => ∀ c : Dev nD,
      r.2.mem ((c.tc : Thread nD τ).loc main_v1) = softOut (m ((c.tc : Thread nD τ).loc main_arg0)) (m ((c.tc : Thread nD τ).loc main_arg1))
      ∧ r.2.mem ((c.tc : Thread nD τ).loc main_v2) = logitsOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v1 (Pipeline.mem_restRefs_of main_v1 rfl (by decide))).trans (tail_v1 m c),
     ((h c).2 main_v2 (Pipeline.mem_restRefs_of main_v2 rfl (by decide))).trans (tail_v2 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.RunValue

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Finite.lean ====
/-
  The finiteness precondition read back: under it every entry of the token array and of the expert table is a real number.

  The precondition says that the absolute value of every entry of both arrays is below +∞; it is the conjunction of two
  "for all entries" tests, each folded by "and" from true into one word. A conjunction that is true has both parts true,
  a fold by "and" that is true had every folded word true, and an extended real whose absolute value is below +∞ is
  neither infinity.
-/
import proofs.«162984_g2018634629600_cont_8to1_1040_18_alg».proof.Pre_finite_inputs
import proofs.«162984_g2018634629600_cont_8to1_1040_18_alg».proof.Proof.LibFiniteOps
import Idealize.ShloMosaic.Lib.ReduceAll
import Idealize.ShloMosaic.Lib.Affine
import Idealize.ShloMosaic.Lib.ValueIdx

noncomputable section

namespace Cert.Finite

open Idealize.ShloMosaic Idealize.ShloMosaic.FiniteOps Cert.Pre_finite_inputs

/-- Under the precondition both argument arrays hold reals only. -/
theorem allReal_of_pre [hP : Cert.Pre_finite_inputs.Facts] (x : FVec Ideal S4x4096x2048 .f32) (w : FVec Ideal S64x2048 .f32)
    (h : Cert.Pre_finite_inputs.fn (F := Ideal) x w = fun _ => 1#1) : AllReal x ∧ AllReal w := by
  have h0 := congrFun h ValueIdx.ix0
  dsimp only [Cert.Pre_finite_inputs.fn] at h0
  obtain ⟨h1, h2⟩ := IntOp.andi_eq_one.1 h0
  exact ⟨allReal_of_all_abs_lt_inf x _ _ _ _ h1, allReal_of_all_abs_lt_inf w _ _ _ _ h2⟩

end Cert.Finite

end
-- ==== Proof.LibSoftmaxShift.lean ====
/-
  The softmax quotient does not change when one real number is subtracted from every exponent.

  For real numbers l_0, …, l_{n-1} (n > 0) and a real r,
      exp (l_e - r) / Σ_k exp (l_k - r) = exp (l_e) / Σ_k exp (l_k),
  because exp (l - r) = exp l · (exp r)⁻¹ and the common nonzero factor (exp r)⁻¹ cancels; both denominators are
  sums of positive reals, hence nonzero, so the quotient of the extended reals is the quotient of the reals.
  The statement is made on the extended reals, where the exponents are images of reals: it is false at the
  infinities (⊤ - ⊤ is ⊥ there), which is why the reals are asked for. This is how a softmax that first subtracts
  each row's maximum meets one that does not.

  Also here: the image of a finite sum of reals is the sum of the images, and the maximum of finitely many reals
  (at least one), folded from -∞, is a real.
-/
import Idealize.ShloMosaic.PureOps.Ideal
import Idealize.ShloMosaic.PureOps.Ideal.Laws

noncomputable section

namespace Idealize.ShloMosaic.SoftmaxShift

open Idealize.ShloMosaic
open scoped BigOperators

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of exponentials over a nonempty range is positive. -/
theorem sum_exp_pos {n : Nat} (hn : 0 < n) (g : Fin n → ℝ) : (0 : ℝ) < ∑ k, Real.exp (g k) :=
  Finset.sum_pos (fun k _ => Real.exp_pos _) ⟨⟨0, hn⟩, Finset.mem_univ _⟩

/-- Shift invariance of the softmax quotient, on images of reals; the shifted side's sum starts from zero (a host
    sum's initial value), the other side's is the bare sum (a lane reduction). -/
theorem softmax_shift {n : Nat} (hn : 0 < n) (l : Fin n → ℝ) (r : ℝ) (e : Fin n) :
    Ideal.div (Ideal.exp ((l e : EReal) - (r : EReal))) (0 + ∑ k : Fin n, Ideal.exp ((l k : EReal) - (r : EReal)))
      = Ideal.div (Ideal.exp (l e : EReal)) (∑ k : Fin n, Ideal.exp (l k : EReal)) := by
  simp only [← EReal.coe_sub, Ideal.exp_coe, ← coe_sum, zero_add]
  rw [Ideal.div_coe (sum_exp_pos hn _).ne', Ideal.div_coe (sum_exp_pos hn _).ne', ← EReal.coe_mul, ← EReal.coe_mul]
  congr 1
  have h1 : ∀ k, Real.exp (l k - r) = Real.exp (l k) * (Real.exp r)⁻¹ := fun k => by
    rw [Real.exp_sub]; rfl
  simp only [h1, ← Finset.sum_mul]
  have hr : Real.exp r ≠ 0 := (Real.exp_pos r).ne'
  have hs : (∑ k : Fin n, Real.exp (l k)) ≠ 0 := (sum_exp_pos hn l).ne'
  field_simp

/-- The maximum of reals over a nonempty range, folded from -∞, is a real: it is below +∞ because every entry
    is, and above -∞ because it is at least the first entry. -/
theorem fold_max_real {n : Nat} (hn : 0 < n) (f : Fin n → EReal) (hf : ∀ k, ∃ x : ℝ, f k = (x : EReal)) :
    ∃ r : ℝ, (Finset.univ : Finset (Fin n)).fold max ⊥ f = (r : EReal) := by
  have hlt : (Finset.univ : Finset (Fin n)).fold max ⊥ f < ⊤ := by
    rw [Finset.fold_max_lt]
    exact ⟨bot_lt_top, fun k _ => by obtain ⟨x, hx⟩ := hf k; rw [hx]; exact EReal.coe_lt_top x⟩
  have hgt : ⊥ < (Finset.univ : Finset (Fin n)).fold max ⊥ f := by
    rw [Finset.lt_fold_max]
    exact Or.inr ⟨⟨0, hn⟩, Finset.mem_univ _, by obtain ⟨x, hx⟩ := hf ⟨0, hn⟩; rw [hx]; exact EReal.bot_lt_coe x⟩
  exact ⟨_, (EReal.coe_toReal (ne_of_lt hlt) (ne_of_gt hgt)).symm⟩

end Idealize.ShloMosaic.SoftmaxShift

end
-- ==== Proof.RefValue.lean ====
/-
  The reference program's two results, entry by entry, on the extended reals.

  The reference contracts the feature axis of the tokens with that of the expert table,
      logit (b, s, e) = Σ_d X (b, s, d) · W (e, d),
  takes, per token, the maximum M (b, s) of its 64 logits (folded from -∞, then once more against -∞), subtracts it,
  exponentiates, sums the 64 exponentials from zero, and divides:
      result (b, s, e) = exp (logit (b, s, e) - M (b, s)) / (0 + Σ_k exp (logit (b, s, k) - M (b, s))).
  When the arguments hold reals only, every logit is a real, and so is M (b, s): a maximum of 64 reals.
-/
import proofs.«162984_g2018634629600_cont_8to1_1040_18_alg».proof.Proof.Gen.ReferenceIdeal.Read
import proofs.«162984_g2018634629600_cont_8to1_1040_18_alg».proof.Proof.LibFiniteOps
import proofs.«162984_g2018634629600_cont_8to1_1040_18_alg».proof.Proof.LibSoftmaxShift
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.FiniteOps
open scoped BigOperators

/-- The reference's logit of token s of batch b for expert e. -/
def refLogit (X : S4x4096x2048.Idx → Elt Ideal .f32) (W : S64x2048.Idx → Elt Ideal .f32) (b : Fin 4) (s : Fin 4096) (e : Fin 64) : Elt Ideal .f32 :=
  ∑ d : Fin 2048, X (ix3 b s d) * W (ix2 e d)

/-- The product stage at (b, s, e) is that logit. -/
theorem logits_at (X : S4x4096x2048.Idx → Elt Ideal .f32) (W : S64x2048.Idx → Elt Ideal .f32) (b : Fin 4) (s : Fin 4096) (e : Fin 64) :
    val_main_v0 (F := Ideal) X W (ix3 b s e) = refLogit X W b s e := by
  rw [val_main_v0_apply]
  unfold refLogit
  refine Finset.sum_congr rfl fun d _ => ?_
  have el : lidx_main_v0 (ix3 b s e) d = ix3 b s d := funext fun a => Fin.ext (by match a with | ⟨0, _⟩ => rfl | ⟨1, _⟩ => rfl | ⟨2, _⟩ => rfl)
  have er : ridx_main_v0 (ix3 b s e) d = ix2 e d := funext fun a => Fin.ext (by match a with | ⟨0, _⟩ => rfl | ⟨1, _⟩ => rfl)
  rw [el, er]

/-- The word of -∞ denotes the bottom element. -/
theorem ofBits_neg_inf : Ideal.ofBits .f32 0xFF800000#32 = ⊥ := by simp [Ideal.ofBits, Ideal.ieee]

/-- The per-token maximum stage (the fold from -∞, then the maximum with -∞ once more). -/
def rowMax (X : S4x4096x2048.Idx → Elt Ideal .f32) (W : S64x2048.Idx → Elt Ideal .f32) (b : Fin 4) (s : Fin 4096) : Elt Ideal .f32 :=
  val_main_v3 (F := Ideal) X W (ix2 b s)

/-- Over real arguments a token's maximum logit is a real. -/
theorem rowMax_isReal (X : S4x4096x2048.Idx → Elt Ideal .f32) (W : S64x2048.Idx → Elt Ideal .f32) (hX : AllReal X) (hW : AllReal W)
    (b : Fin 4) (s : Fin 4096) : IsReal (rowMax X W b s) := by
  unfold rowMax
  rw [val_main_v3_apply, val_main_v2_apply, val_main_cst_0_apply]
  have hv0 : AllReal (val_main_v0 (F := Ideal) X W) := AllReal.hostDotGeneral _ none hX hW
  have hfold : IsReal (val_main_v1 (F := Ideal) X W (ix2 b s)) := by
    unfold val_main_v1
    have efold := Host.reduce_eq_fold_single (FloatOps.maximumf (F := Ideal) (φ := .f32)) (val_main_v0 (F := Ideal) X W : FVec Ideal S4x4096x64 .f32)
      (val_main_cst (F := Ideal) : FVec Ideal S_ .f32) reducesTo_S4x4096x64_S4x4096_d2 (by decide) h_S_ (ix2 b s)
    rw [efold]
    show IsReal ((Finset.univ : Finset (Fin 64)).fold max (Ideal.ofBits .f32 0xFF800000#32) _)
    rw [ofBits_neg_inf]
    exact SoftmaxShift.fold_max_real (by decide) _ (fun k => hv0 _)
  obtain ⟨r, hr⟩ := hfold
  show IsReal (max (Ideal.ofBits .f32 0xFF800000#32) (val_main_v1 (F := Ideal) X W (ix2 b s)))
  rw [ofBits_neg_inf, hr, max_eq_right bot_le]
  exact ⟨r, rfl⟩

/-- The softmax result at (b, s, e): the shifted quotient. -/
theorem soft_at (X : S4x4096x2048.Idx → Elt Ideal .f32) (W : S64x2048.Idx → Elt Ideal .f32) (b : Fin 4) (s : Fin 4096) (e : Fin 64) :
    val_main_v11 (F := Ideal) X W (ix3 b s e)
      = Ideal.div (Ideal.exp (refLogit X W b s e - rowMax X W b s))
          (0 + ∑ k : Fin 64, Ideal.exp (refLogit X W b s k - rowMax X W b s)) := by
  have i45 : ∀ k : Fin 64, idx_main_v4 (idx_main_v5 (ix3 b s k)) = ix2 b s := fun k =>
    funext fun a => Fin.ext (by match a with | ⟨0, _⟩ => rfl | ⟨1, _⟩ => rfl)
  have i8 : ∀ k : Fin 64, idx_main_v8 (idx_main_v9 (idx_main_v10 (ix3 b s e))) k = ix3 b s k := fun k =>
    funext fun a => Fin.ext (by match a with | ⟨0, _⟩ => rfl | ⟨1, _⟩ => rfl | ⟨2, _⟩ => rfl)
  have h7 : ∀ k : Fin 64, val_main_v7 (F := Ideal) X W (ix3 b s k) = Ideal.exp (refLogit X W b s k - rowMax X W b s) := fun k => by
    rw [val_main_v7_apply, val_main_v6_apply, val_main_v5_apply, val_main_v4_apply, i45 k, logits_at]
    rfl
  rw [val_main_v11_apply, h7 e, val_main_v10_apply, val_main_v9_apply, val_main_v8_apply, val_main_cst_1_apply]
  simp only [i8, h7]
  show Ideal.div _ (Ideal.ofBits .f32 0x00000000#32 + _) = _
  rw [Ideal.ofBits_zero_f32]

end Cert.ReferenceIdeal.RefValue

end
-- ==== Proof.Bridge.lean ====
/-
  The kernel's results and the reference's are the same functions of the argument arrays.

  Logits: the kernel sums W (e, d) · X (b, s, d) over the features and the reference X (b, s, d) · W (e, d); the products
  commute, so after the kernel's exchange of the last two axes the two arrays agree entry by entry, on all extended reals.

  Softmax: the kernel divides exp (logit) by the sum of the exponentials over the experts; the reference first subtracts the
  token's maximum logit. When the arguments hold reals only (the precondition), every logit and the maximum are reals, and
  subtracting one real from every exponent does not change the quotient.
-/
import proofs.«162984_g2018634629600_cont_8to1_1040_18_alg».proof.Proof.KernelRun
import proofs.«162984_g2018634629600_cont_8to1_1040_18_alg».proof.Proof.RefValue
import proofs.«162984_g2018634629600_cont_8to1_1040_18_alg».proof.Proof.LibSoftmaxShift
import proofs.«162984_g2018634629600_cont_8to1_1040_18_alg».proof.Proof.LibFiniteOps
import Idealize.ShloMosaic.Lib.ValueLayout

noncomputable section

namespace Cert.Bridge

open Cert.KernelIdeal.Arrays Cert.KernelIdeal.RunValue Cert.ReferenceIdeal.RefValue
open Idealize.ShloMosaic Idealize.ShloMosaic.ValueIdx Idealize.ShloMosaic.FiniteOps
open scoped BigOperators

/-- The kernel's logit is the reference's: the factors of each product exchanged. -/
theorem logitA_eq (X : Cert.KernelIdeal.S4x4096x2048.Idx → Elt Ideal .f32) (W : Cert.KernelIdeal.S64x2048.Idx → Elt Ideal .f32)
    (b : Fin 4) (e : Fin 64) (s : Fin 4096) : logitA X W b e s = refLogit X W b s e := by
  unfold logitA refLogit
  exact Finset.sum_congr rfl fun d _ => mul_comm _ _

/-- The kernel's logits result is the reference's product stage. -/
theorem logitsOut_eq (X : Cert.KernelIdeal.S4x4096x2048.Idx → Elt Ideal .f32) (W : Cert.KernelIdeal.S64x2048.Idx → Elt Ideal .f32) :
    logitsOut X W = Cert.ReferenceIdeal.Read.val_main_v0 (F := Ideal) X W := by
  funext i
  obtain ⟨b, s, e, rfl⟩ : ∃ (b : Fin 4) (s : Fin 4096) (e : Fin 64), i = ix3 b s e := ⟨i 0, i 1, i 2, eq_ix3 i⟩
  unfold logitsOut
  rw [transpose_ix3_021_apply, logits_at]
  show logitA X W b e s = _
  exact logitA_eq X W b e s

/-- Over real arguments the kernel's softmax result is the reference's. -/
theorem softOut_eq (X : Cert.KernelIdeal.S4x4096x2048.Idx → Elt Ideal .f32) (W : Cert.KernelIdeal.S64x2048.Idx → Elt Ideal .f32)
    (hX : AllReal X) (hW : AllReal W) :
    softOut X W = Cert.ReferenceIdeal.Read.val_main_v11 (F := Ideal) X W := by
  funext i
  obtain ⟨b, s, e, rfl⟩ : ∃ (b : Fin 4) (s : Fin 4096) (e : Fin 64), i = ix3 b s e := ⟨i 0, i 1, i 2, eq_ix3 i⟩
  unfold softOut
  rw [transpose_ix3_021_apply, soft_at]
  show softA X W b e s = _
  unfold softA
  simp only [logitA_eq]
  have hl : ∀ k : Fin 64, IsReal (refLogit X W b s k) := fun k => IsReal.sum _ _ fun d _ => (hX _).mul (hW _)
  choose l hl using hl
  obtain ⟨r, hr⟩ := rowMax_isReal X W hX hW b s
  simp only [hl, hr]
  exact (SoftmaxShift.softmax_shift (by decide) l r e).symm

end Cert.Bridge

end
-- ==== Proof.lean ====
/-
  A mixture-of-experts router: logits = tokens × (expert table)ᵀ and a softmax over the experts, the kernel against its
  plain reference, on the extended reals.

  The kernel works on blocks of 1024 tokens, forms the logits transposed ([expert, token]), exponentiates them and divides
  by the sum over the experts, and finally exchanges the last two axes of both results; the reference forms the logits
  [token, expert] by one contraction and applies the usual softmax, which subtracts each token's maximum logit before
  exponentiating. Under the precondition (every input entry finite) all logits and maxima are real numbers, and
      exp (l_e - M) / Σ_k exp (l_k - M) = exp (l_e) / Σ_k exp (l_k)
  for real l and M, so both programs end with the same two arrays; the logits agree on all extended reals, since only the
  order of the factors of each product differs.

  The three run-and-keep-the-arguments claims: the kernel programs' are the frames proved from the pipeline's launch and
  the body's stores; the reference's is its run with the results dropped. The kernel's idealization rewrote nothing, so
  the claim that it is sanctioned has no conjunct.
-/
import proofs.«162984_g2018634629600_cont_8to1_1040_18_alg».proof.Defs
import proofs.«162984_g2018634629600_cont_8to1_1040_18_alg».proof.Proof.Gen.Kernel
import proofs.«162984_g2018634629600_cont_8to1_1040_18_alg».proof.Proof.Gen.Kernel.Skeleton
import proofs.«162984_g2018634629600_cont_8to1_1040_18_alg».proof.Proof.Gen.Kernel.Launch
import proofs.«162984_g2018634629600_cont_8to1_1040_18_alg».proof.Proof.Gen.Kernel.Points
import proofs.«162984_g2018634629600_cont_8to1_1040_18_alg».proof.Proof.Gen.Kernel.Frame
import proofs.«162984_g2018634629600_cont_8to1_1040_18_alg».proof.Proof.Gen.KernelIdeal
import proofs.«162984_g2018634629600_cont_8to1_1040_18_alg».proof.Proof.Gen.KernelIdeal.Skeleton
import proofs.«162984_g2018634629600_cont_8to1_1040_18_alg».proof.Proof.Gen.KernelIdeal.Launch
import proofs.«162984_g2018634629600_cont_8to1_1040_18_alg».proof.Proof.Gen.KernelIdeal.Points
import proofs.«162984_g2018634629600_cont_8to1_1040_18_alg».proof.Proof.Gen.KernelIdeal.Frame
import proofs.«162984_g2018634629600_cont_8to1_1040_18_alg».proof.Proof.Gen.ReferenceIdeal
import proofs.«162984_g2018634629600_cont_8to1_1040_18_alg».proof.Proof.Gen.Pre_finite_inputs
import proofs.«162984_g2018634629600_cont_8to1_1040_18_alg».proof.Proof.Gen.ReferenceIdeal.Run
import proofs.«162984_g2018634629600_cont_8to1_1040_18_alg».proof.Proof.Gen.ReferenceIdeal.Read
import proofs.«162984_g2018634629600_cont_8to1_1040_18_alg».proof.Proof.KernelRun
import proofs.«162984_g2018634629600_cont_8to1_1040_18_alg».proof.Proof.Finite
import proofs.«162984_g2018634629600_cont_8to1_1040_18_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the tokens and the table, both finite: the kernel ends with the softmax and the logits
    of its arguments, and the reference with the same two arrays — the softmax by shift invariance over the reals, the
    logits by commutativity of the products. -/
theorem algebraic : Cert.algebraic_KernelIdeal_ReferenceIdeal := by
  intro m ρ m' ρ' hpre hagree
  refine ⟨fun c => Cert.KernelIdeal.RunValue.softOut (m ((c.tc : Thread Cert.KernelIdeal.nD Cert.KernelIdeal.τ).loc Cert.KernelIdeal.main_arg0))
              (m ((c.tc : Thread Cert.KernelIdeal.nD Cert.KernelIdeal.τ).loc Cert.KernelIdeal.main_arg1)),
          fun c => Cert.KernelIdeal.RunValue.logitsOut (m ((c.tc : Thread Cert.KernelIdeal.nD Cert.KernelIdeal.τ).loc Cert.KernelIdeal.main_arg0))
              (m ((c.tc : Thread Cert.KernelIdeal.nD Cert.KernelIdeal.τ).loc Cert.KernelIdeal.main_arg1)),
          Cert.KernelIdeal.RunValue.run m ρ, ?_⟩
  refine (θ_run Cert.ReferenceIdeal.defs _ _).mono (fun _ h c => ?_) (Cert.ReferenceIdeal.Value.run (F := Ideal) m' ρ')
  obtain ⟨hX, hW⟩ := Cert.Finite.allReal_of_pre _ _ (hpre c)
  refine ⟨(h c).1.trans ?_, (h c).2.1.trans ?_, (h c).2.2.1, (h c).2.2.2⟩
  · rw [(hagree c).1, (hagree c).2, Cert.ReferenceIdeal.Read.val_main_v11_eq]
    exact (Cert.Bridge.softOut_eq _ _ hX hW).symm
  · rw [(hagree c).1, (hagree c).2, Cert.ReferenceIdeal.Read.val_main_v0_eq]
    exact (Cert.Bridge.logitsOut_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
